-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S3072x1024 : Shape := ⟨2, ![3072, 1024]⟩
abbrev S1024x3072 : Shape := ⟨2, ![1024, 3072]⟩
abbrev S2048x1024 : Shape := ⟨2, ![2048, 1024]⟩
abbrev S1024x2048 : Shape := ⟨2, ![1024, 2048]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 17
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S2048x1024, .f32⟩
  | .hbm, ⟨12, _⟩ => ⟨S1024x2048, .f32⟩
  | .hbm, ⟨13, _⟩ => ⟨S1024x2048, .bf16⟩
  | .hbm, ⟨14, _⟩ => ⟨S1024x1024, .f32⟩
  | .hbm, ⟨15, _⟩ => ⟨S1024x1024, .bf16⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024x1024_S1024x1024_S2048x1024_d0 : Shape.Concatenates [S1024x1024, S1024x1024] S2048x1024 0
  transposes_S2048x1024_S1024x2048_1_0 : S2048x1024.Transposes [1, 0] S1024x2048
  transposes_S1024x1024_S1024x1024_1_0 : S1024x1024.Transposes [1, 0] S1024x1024
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x3072_o0_0_S256x1024 : S256x3072.Slices ![0, 0] S256x1024
  slices_S256x2048_o0_0_S256x1024 : S256x2048.Slices ![0, 0] S256x1024
  slices_S256x3072_o0_1024_S256x1024 : S256x3072.Slices ![0, 1024] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S3072x1024 : Shape := ⟨2, ![3072, 1024]⟩
abbrev S1024x3072 : Shape := ⟨2, ![1024, 3072]⟩
abbrev S8192x3072 : Shape := ⟨2, ![8192, 3072]⟩
abbrev S2048x1024 : Shape := ⟨2, ![2048, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S3072x1024, .f32⟩
  | .hbm, ⟨9, _⟩ => ⟨S1024x3072, .f32⟩
  | .hbm, ⟨10, _⟩ => ⟨S8192x3072, .f32⟩
  | .hbm, ⟨11, _⟩ => ⟨S2048x1024, .f32⟩
  | .hbm, ⟨12, _⟩ => ⟨S1024x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  concatenates_S1024x1024_S1024x1024_S2048x1024_d0 : Shape.Concatenates [S1024x1024, S1024x1024] S2048x1024 0
  transposes_S2048x1024_S1024x2048_1_0 : S2048x1024.Transposes [1, 0] S1024x2048
  slices_S8192x3072_S8192x1024_0_0 : S8192x3072.Slices ![0, 0] S8192x1024
  slices_S8192x2048_S8192x1024_0_0 : S8192x2048.Slices ![0, 0] S8192x1024
  bcast_S_S8192x1024 : S_.BroadcastsInDim S8192x1024 (![] : Fin 0 → Fin S8192x1024.rank)
  slices_S8192x3072_S8192x1024_0_1024 : S8192x3072.Slices ![0, 1024] S8192x1024
  slices_S8192x2048_S8192x1024_0_1024 : S8192x2048.Slices ![0, 1024] S8192x1024
  transposes_S1024x1024_S1024x1024_1_0 : S1024x1024.Transposes [1, 0] S1024x1024
  slices_S8192x3072_S8192x1024_0_2048 : S8192x3072.Slices ![0, 2048] S8192x1024
  dot_S8192x1024_S1024x3072_S8192x3072_1_0_0_1_n_n_wf : DotDims.WF S8192x1024 S1024x3072 S8192x3072 [1] [0] [0] [1] [] []
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.FrameKernel.lean ====
/-
  The frame of the fused GRU-cell program, at any float family `F`.

  @main first assembles three weight matrices on the host: the rows of W_wz, W_wr, W_w stacked and
  transposed to [1024, 3072]; the rows of W_uz, W_ur stacked and transposed to [1024, 2048]; W_u
  transposed; each narrowed to bf16. Then ONE pipelined region runs over 32 grid points. Point `t`
  stages rows 256·t … 256·t + 255 of x and of h and the three weight matrices whole (their block index
  never moves), and writes rows 256·t … 256·t + 255 of the result back.
  The body reads the five staged blocks whole and overwrites the whole output block with ONE value, the
  function `k0_pay1` of the five blocks (it also reads the output block before overwriting it, and
  drops what it read). Hence at every point each input's staging buffer holds its block of the array as
  the region found it, the output's buffer ends the point at `k0_pay1` of those blocks, and nothing else
  is touched. No host operation writes an argument array, two of the arguments (x, h) are staged as
  inputs and six bypass the region: all eight end as they began.
-/
import proofs.«161924_j34943853920831_1_alg».proof.Proof.Gen.Kernel.Launch
import proofs.«161924_j34943853920831_1_alg».proof.Proof.Gen.Kernel.Skeleton
import proofs.«161924_j34943853920831_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents `m` after the eight host
    operations that assemble the weight matrices. -/
abbrev atEntry (c : Dev nD) (b : Ref sig .tc) : Buf (Elt F) ((c : Thread nD τ).loc b) :=
  StableHlo.after hostOps0 (fun b => m (c, b)) b

/-- None of the eight host operations allocates a buffer. -/
theorem hostOps_fresh : (hostOps0 : List (HloOp τ sig (Elt F))).Forall fun op => op.fresh = ∅ := by
  simp only [List.Forall]; repeat' constructor

/-- @main is the eight host operations and then the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-! Each host operation writes one of the intermediate buffers `main_v0 … main_v7`, never an argument: the
    region finds every argument array as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at EVERY point: where the window is fetched
    the fetch brings it, and where it is not (the weight matrices after the first point) the block index
    has not moved and the body left the buffer as it found it. For any proof data over `atEntry` whose
    body leaves the input blocks in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the pipeline's post to the frame claim's -/

/-- The arguments x and h are the arrays of input windows 0 and 1, which the pipeline leaves at their entry
    contents; the six weight arguments are staged by no window and bypass the region; and the entry contents of
    all eight are the launch contents. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩) h

/-! ## The body -/

/-- The whole of a 256 × 1024 block, of the 1024 × 3072, the 1024 × 2048 and the 1024 × 1024 weight block:
    the four rectangles the body reads and writes through. -/
abbrev allRows : Rect S256x1024 := Rect.unit (s := S256x1024) ![0, 0] S256x1024.size inb_S256x1024_S256x1024_0_0
abbrev allWx : Rect S1024x3072 := Rect.unit (s := S1024x3072) ![0, 0] S1024x3072.size inb_S1024x3072_S1024x3072_0_0
abbrev allWh : Rect S1024x2048 := Rect.unit (s := S1024x2048) ![0, 0] S1024x2048.size inb_S1024x2048_S1024x2048_0_0
abbrev allWu : Rect S1024x1024 := Rect.unit (s := S1024x1024) ![0, 0] S1024x1024.size inb_S1024x1024_S1024x1024_0_0

/-- What the output block's buffer holds after the body, from the five input blocks: one store over the whole
    block, of `k0_pay1` of the blocks read whole. -/
def newRows (x h : Vec F S256x1024 .f32) (wx : Vec F S1024x3072 .bf16) (wh : Vec F S1024x2048 .bf16) (wu : Vec F S1024x1024 .bf16) :
    Vec F S256x1024 .f32 :=
  View.canon [⟨allRows, k0_pay1 (View.ld x allRows) (View.ld h allRows) (View.ld wx allWx) (View.ld wh allWh) (View.ld wu allWu)⟩]

/-- The one store covers the block. -/
theorem newRows_cover (p0 : Vec F S256x1024 .f32) (y : S256x1024.Idx) :
    ∃ pc ∈ ([⟨allRows, p0⟩] : List (View.Piece (Elt F) S256x1024 .f32)), y ∈ pc.1.set :=
  View.cover_of_tiled [⟨allRows, p0⟩] S256x1024.size (by rfl) y

set_option maxHeartbeats 1000000 in
/-- The body on whole staging memrefs, the five inputs' at contents `x h wx wh wu` and the output's at anything:
    it ends with the inputs' as they were and the output's at `newRows` of them. -/
theorem body_run (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x2048 .bf16) (harg4 : arg4.IsWhole)
    (arg5 : Memref sig .tc .vmem S1024x1024 .bf16) (harg5 : arg5.IsWhole) (arg6 : Memref sig .tc .vmem S256x1024 .f32) (harg6 : arg6.IsWhole)
    (x h : Vec F S256x1024 .f32) (wx : Vec F S1024x3072 .bf16) (wh : Vec F S1024x2048 .bf16) (wu : Vec F S1024x1024 .bf16)
    (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare wu ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare wu
            ∗ owns (c : Thread nD τ) arg6 fullShare (newRows x h wx wh wu)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (newRows_cover _)

/-! ## The pipeline's proof data -/

/-- On core `c`: the arrays as the region finds them; after the body at point `t` each input's buffer at its
    block and the output's at `newRows` of the five blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => newRows (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = newRows (blockAt m c 0 t) (blockAt m c 1 t) (blockAt m c 2 t) (blockAt m c 3 t) (blockAt m c 4 t) := by dsimp only [dats]

theorem before_0 (c : Dev nD) (t : Fin cfg0.N) (d) : (dats m 0 c).before 0 t d = blockAt m c 0 t :=
  staged0_of m (dats m 0 c) (dats_A m c 0) (after_0 m c) t d
theorem before_1 (c : Dev nD) (t : Fin cfg0.N) (d) : (dats m 0 c).before 1 t d = blockAt m c 1 t :=
  staged1_of m (dats m 0 c) (dats_A m c 1) (after_1 m c) t d
theorem before_2 (c : Dev nD) (t : Fin cfg0.N) (d) : (dats m 0 c).before 2 t d = blockAt m c 2 t :=
  staged2_of m (dats m 0 c) (dats_A m c 2) (after_2 m c) t d
theorem before_3 (c : Dev nD) (t : Fin cfg0.N) (d) : (dats m 0 c).before 3 t d = blockAt m c 3 t :=
  staged3_of m (dats m 0 c) (dats_A m c 3) (after_3 m c) t d
theorem before_4 (c : Dev nD) (t : Fin cfg0.N) (d) : (dats m 0 c).before 4 t d = blockAt m c 4 t :=
  staged4_of m (dats m 0 c) (dats_A m c 4) (after_4 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' memrefs hold their blocks, so `body_run` applies; the invariant and the core's
    debt pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates; at the end the result array holds, block by block, what the
    body left at each write-back, the input arrays their entry contents, and every buffer that bypasses the region
    what it held at the region's entry. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- The frame claim: @main runs to the end and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (dats m) (dats_A m) (run_main m ρ)

end Cert.Kernel.Hand

end
-- ==== Proof.FrameKernelIdeal.lean ====
/-
  The frame of the fused GRU-cell program, at any float family `F`.

  @main first assembles three weight matrices on the host: the rows of W_wz, W_wr, W_w stacked and
  transposed to [1024, 3072]; the rows of W_uz, W_ur stacked and transposed to [1024, 2048]; W_u
  transposed; each narrowed to bf16. Then ONE pipelined region runs over 32 grid points. Point `t`
  stages rows 256·t … 256·t + 255 of x and of h and the three weight matrices whole (their block index
  never moves), and writes rows 256·t … 256·t + 255 of the result back.
  The body reads the five staged blocks whole and overwrites the whole output block with ONE value, the
  function `k0_pay1` of the five blocks (it also reads the output block before overwriting it, and
  drops what it read). Hence at every point each input's staging buffer holds its block of the array as
  the region found it, the output's buffer ends the point at `k0_pay1` of those blocks, and nothing else
  is touched. No host operation writes an argument array, two of the arguments (x, h) are staged as
  inputs and six bypass the region: all eight end as they began.
-/
import proofs.«161924_j34943853920831_1_alg».proof.Proof.Gen.KernelIdeal.Launch
import proofs.«161924_j34943853920831_1_alg».proof.Proof.Gen.KernelIdeal.Skeleton
import proofs.«161924_j34943853920831_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents `m` after the eight host
    operations that assemble the weight matrices. -/
abbrev atEntry (c : Dev nD) (b : Ref sig .tc) : Buf (Elt F) ((c : Thread nD τ).loc b) :=
  StableHlo.after hostOps0 (fun b => m (c, b)) b

/-- None of the eight host operations allocates a buffer. -/
theorem hostOps_fresh : (hostOps0 : List (HloOp τ sig (Elt F))).Forall fun op => op.fresh = ∅ := by
  simp only [List.Forall]; repeat' constructor

/-- @main is the eight host operations and then the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-! Each host operation writes one of the intermediate buffers `main_v0 … main_v7`, never an argument: the
    region finds every argument array as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at EVERY point: where the window is fetched
    the fetch brings it, and where it is not (the weight matrices after the first point) the block index
    has not moved and the body left the buffer as it found it. For any proof data over `atEntry` whose
    body leaves the input blocks in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the pipeline's post to the frame claim's -/

/-- The arguments x and h are the arrays of input windows 0 and 1, which the pipeline leaves at their entry
    contents; the six weight arguments are staged by no window and bypass the region; and the entry contents of
    all eight are the launch contents. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩) h

/-! ## The body -/

/-- The whole of a 256 × 1024 block, of the 1024 × 3072, the 1024 × 2048 and the 1024 × 1024 weight block:
    the four rectangles the body reads and writes through. -/
abbrev allRows : Rect S256x1024 := Rect.unit (s := S256x1024) ![0, 0] S256x1024.size inb_S256x1024_S256x1024_0_0
abbrev allWx : Rect S1024x3072 := Rect.unit (s := S1024x3072) ![0, 0] S1024x3072.size inb_S1024x3072_S1024x3072_0_0
abbrev allWh : Rect S1024x2048 := Rect.unit (s := S1024x2048) ![0, 0] S1024x2048.size inb_S1024x2048_S1024x2048_0_0
abbrev allWu : Rect S1024x1024 := Rect.unit (s := S1024x1024) ![0, 0] S1024x1024.size inb_S1024x1024_S1024x1024_0_0

/-- What the output block's buffer holds after the body, from the five input blocks: one store over the whole
    block, of `k0_pay1` of the blocks read whole. -/
def newRows (x h : Vec F S256x1024 .f32) (wx : Vec F S1024x3072 .bf16) (wh : Vec F S1024x2048 .bf16) (wu : Vec F S1024x1024 .bf16) :
    Vec F S256x1024 .f32 :=
  View.canon [⟨allRows, k0_pay1 (View.ld x allRows) (View.ld h allRows) (View.ld wx allWx) (View.ld wh allWh) (View.ld wu allWu)⟩]

/-- The one store covers the block. -/
theorem newRows_cover (p0 : Vec F S256x1024 .f32) (y : S256x1024.Idx) :
    ∃ pc ∈ ([⟨allRows, p0⟩] : List (View.Piece (Elt F) S256x1024 .f32)), y ∈ pc.1.set :=
  View.cover_of_tiled [⟨allRows, p0⟩] S256x1024.size (by rfl) y

set_option maxHeartbeats 1000000 in
/-- The body on whole staging memrefs, the five inputs' at contents `x h wx wh wu` and the output's at anything:
    it ends with the inputs' as they were and the output's at `newRows` of them. -/
theorem body_run (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x2048 .bf16) (harg4 : arg4.IsWhole)
    (arg5 : Memref sig .tc .vmem S1024x1024 .bf16) (harg5 : arg5.IsWhole) (arg6 : Memref sig .tc .vmem S256x1024 .f32) (harg6 : arg6.IsWhole)
    (x h : Vec F S256x1024 .f32) (wx : Vec F S1024x3072 .bf16) (wh : Vec F S1024x2048 .bf16) (wu : Vec F S1024x1024 .bf16)
    (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare wu ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare wu
            ∗ owns (c : Thread nD τ) arg6 fullShare (newRows x h wx wh wu)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (newRows_cover _)

/-! ## The pipeline's proof data -/

/-- On core `c`: the arrays as the region finds them; after the body at point `t` each input's buffer at its
    block and the output's at `newRows` of the five blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => newRows (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = newRows (blockAt m c 0 t) (blockAt m c 1 t) (blockAt m c 2 t) (blockAt m c 3 t) (blockAt m c 4 t) := by dsimp only [dats]

theorem before_0 (c : Dev nD) (t : Fin cfg0.N) (d) : (dats m 0 c).before 0 t d = blockAt m c 0 t :=
  staged0_of m (dats m 0 c) (dats_A m c 0) (after_0 m c) t d
theorem before_1 (c : Dev nD) (t : Fin cfg0.N) (d) : (dats m 0 c).before 1 t d = blockAt m c 1 t :=
  staged1_of m (dats m 0 c) (dats_A m c 1) (after_1 m c) t d
theorem before_2 (c : Dev nD) (t : Fin cfg0.N) (d) : (dats m 0 c).before 2 t d = blockAt m c 2 t :=
  staged2_of m (dats m 0 c) (dats_A m c 2) (after_2 m c) t d
theorem before_3 (c : Dev nD) (t : Fin cfg0.N) (d) : (dats m 0 c).before 3 t d = blockAt m c 3 t :=
  staged3_of m (dats m 0 c) (dats_A m c 3) (after_3 m c) t d
theorem before_4 (c : Dev nD) (t : Fin cfg0.N) (d) : (dats m 0 c).before 4 t d = blockAt m c 4 t :=
  staged4_of m (dats m 0 c) (dats_A m c 4) (after_4 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' memrefs hold their blocks, so `body_run` applies; the invariant and the core's
    debt pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates; at the end the result array holds, block by block, what the
    body left at each write-back, the input arrays their entry contents, and every buffer that bypasses the region
    what it held at the region's entry. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- The frame claim: @main runs to the end and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (dats m) (dats_A m) (run_main m ρ)

end Cert.KernelIdeal.Hand

end
-- ==== Proof.Spec.lean ====
/-
  The GRU cell as one function of its arrays, index by index, on the extended reals.

  For a batch of `B` rows, inputs x, h : [B, 1024], and three weight matrices already laid out for a
  product from the right — wx : [1024, 3072] (the update, reset and candidate input weights side by side),
  wh : [1024, 2048] (the update and reset hidden weights side by side), wu : [1024, 1024] —:

      xp b n = Σₖ x b k · wx k n            hp b n = Σₖ h b k · wh k n
      z b j  = σ (xp b j + hp b j)           r b j  = σ (xp b (1024 + j) + hp b (1024 + j))
      c b j  = tanh (Σₖ (r b k · h b k) · wu k j + xp b (2048 + j))
      out b j = z b j · h b j + (1 − z b j) · c b j

  with σ a = 1 / (1 + e^(−a)), the quotient and the exponential taken with their conventions at the
  infinities. Row `b` of the result reads only row `b` of x and of h (`gruAt_row`): a block of rows of the
  result is the same function of the matching block of rows of x and h.
-/
import Idealize.ShloMosaic.PureOps.Ideal
import Idealize.ShloMosaic.Lib.ValueIdx

noncomputable section

namespace Cert.Gru

open Idealize.ShloMosaic Idealize.ShloMosaic.ValueIdx

section
variable {B : Nat} (x h : (⟨2, ![B, 1024]⟩ : Shape).Idx → EReal)
  (wx : (⟨2, ![1024, 3072]⟩ : Shape).Idx → EReal) (wh : (⟨2, ![1024, 2048]⟩ : Shape).Idx → EReal)
  (wu : (⟨2, ![1024, 1024]⟩ : Shape).Idx → EReal)

/-- Row `b` of x against column `n` of the input weights. -/
def xProj (b : Fin B) (n : Fin 3072) : EReal := ∑ k : Fin 1024, x (ix2 b k) * wx (ix2 k n)

/-- Row `b` of h against column `n` of the hidden weights. -/
def hProj (b : Fin B) (n : Fin 2048) : EReal := ∑ k : Fin 1024, h (ix2 b k) * wh (ix2 k n)

/-- The update gate: the first 1024 columns of both projections. -/
def updateGate (b : Fin B) (j : Fin 1024) : EReal :=
  Ideal.logistic (xProj x wx b ⟨j.val, by have := j.isLt; omega⟩ + hProj h wh b ⟨j.val, by have := j.isLt; omega⟩)

/-- The reset gate: the second 1024 columns of both projections. -/
def resetGate (b : Fin B) (j : Fin 1024) : EReal :=
  Ideal.logistic (xProj x wx b ⟨1024 + j.val, by have := j.isLt; omega⟩ + hProj h wh b ⟨1024 + j.val, by have := j.isLt; omega⟩)

/-- The candidate state: the reset hidden row against wu, plus the last 1024 columns of the input projection. -/
def candidate (b : Fin B) (j : Fin 1024) : EReal :=
  Ideal.tanh ((∑ k : Fin 1024, (resetGate x h wx wh b k * h (ix2 b k)) * wu (ix2 k j))
    + xProj x wx b ⟨2048 + j.val, by have := j.isLt; omega⟩)

/-- The new hidden state at row `b`, column `j`. -/
def gruAt (b : Fin B) (j : Fin 1024) : EReal :=
  updateGate x h wx wh b j * h (ix2 b j) + (1 - updateGate x h wx wh b j) * candidate x h wx wh wu b j

/-- The new hidden state as an array. -/
def gru : (⟨2, ![B, 1024]⟩ : Shape).Idx → EReal :=
  fun i => gruAt x h wx wh wu ⟨(i 0).val, idx2_lt0 i⟩ ⟨(i 1).val, idx2_lt1 i⟩

theorem gru_ix2 (b : Fin B) (j : Fin 1024) : gru x h wx wh wu (ix2 b j) = gruAt x h wx wh wu b j := rfl

end

/-- Row `b` of the result reads only row `b` of x and of h. -/
theorem gruAt_row {B B' : Nat} (x h : (⟨2, ![B, 1024]⟩ : Shape).Idx → EReal) (x' h' : (⟨2, ![B', 1024]⟩ : Shape).Idx → EReal)
    (wx : (⟨2, ![1024, 3072]⟩ : Shape).Idx → EReal) (wh : (⟨2, ![1024, 2048]⟩ : Shape).Idx → EReal)
    (wu : (⟨2, ![1024, 1024]⟩ : Shape).Idx → EReal) (b : Fin B) (b' : Fin B')
    (hx : ∀ k, x (ix2 b k) = x' (ix2 b' k)) (hh : ∀ k, h (ix2 b k) = h' (ix2 b' k)) (j : Fin 1024) :
    gruAt x h wx wh wu b j = gruAt x' h' wx wh wu b' j := by
  have exp : ∀ n, xProj x wx b n = xProj x' wx b' n := fun n => by
    unfold xProj; exact Finset.sum_congr rfl fun k _ => by rw [hx]
  have ehp : ∀ n, hProj h wh b n = hProj h' wh b' n := fun n => by
    unfold hProj; exact Finset.sum_congr rfl fun k _ => by rw [hh]
  have ez : ∀ j, updateGate x h wx wh b j = updateGate x' h' wx wh b' j := fun j => by
    unfold updateGate; rw [exp, ehp]
  have er : ∀ j, resetGate x h wx wh b j = resetGate x' h' wx wh b' j := fun j => by
    unfold resetGate; rw [exp, ehp]
  have ec : candidate x h wx wh wu b j = candidate x' h' wx wh wu b' j := by
    unfold candidate; rw [exp]
    exact congrArg (fun s => Ideal.tanh (s + _)) (Finset.sum_congr rfl fun k _ => by rw [er, hh])
  unfold gruAt; rw [ez, ec, hh]

/-! ## The two spellings of the sigmoid -/

/-- The f32 word `0x3F800000` is the real number one. -/
theorem one_f32 : Ideal.ofBits .f32 0x3F800000#32 = 1 := by
  simp [Ideal.ofBits, Ideal.ieee, -EReal.coe_mul]; norm_num

/-- `1 / (1 + e^(−a))` written with the word for one, the quotient and the exponential is the logistic function,
    at the infinities too: it is the function's definition. -/
theorem sigmoid_eq (a : EReal) :
    Ideal.div (Ideal.ofBits .f32 0x3F800000#32) (Ideal.ofBits .f32 0x3F800000#32 + Ideal.exp (-a)) = Ideal.logistic a := by
  rw [one_f32]; rfl

end Cert.Gru

end
-- ==== Proof.KernelPayload.lean ====
/-
  The kernel body's one stored value, read at row `p` and column `j` of a block of 256 rows, on the
  extended reals: it is the GRU cell `Cert.Gru.gruAt` at batch size 256 of the two staged blocks of x and h
  and the three staged weight matrices.

  The body narrows both blocks to bf16 (the identity here), multiplies them into the input and hidden
  weights with zero accumulators (each entry a sum over the 1024 contracted columns), cuts the products
  into thirds and halves by columns (a shift of the column by 0, 1024 or 2048), applies the logistic
  function to the sums of the matching pieces, multiplies the reset gate into h, narrows again, multiplies
  into the third weight matrix, adds the last third of the input product, takes tanh, and mixes h and the
  candidate by the update gate, one minus it written with the word for one.
-/
import proofs.«161924_j34943853920831_1_alg».proof.Proof.Gen.KernelIdeal.Skeleton
import proofs.«161924_j34943853920831_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Gru
open Idealize.ShloMosaic Idealize.ShloMosaic.ValueIdx

/-! ## The three products at an index -/

/-! ### The block of x against the input weights -/

theorem lhs_x_0 (i : S256x3072.Idx) (q : dot_S256x1024_S1024x3072_S256x3072_1_0_0_1_n_n.contr.Idx) : (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_x_1 (i : S256x3072.Idx) (q : dot_S256x1024_S1024x3072_S256x3072_1_0_0_1_n_n.contr.Idx) : (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_x_0 (i : S256x3072.Idx) (q : dot_S256x1024_S1024x3072_S256x3072_1_0_0_1_n_n.contr.Idx) : (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_x_1 (i : S256x3072.Idx) (q : dot_S256x1024_S1024x3072_S256x3072_1_0_0_1_n_n.contr.Idx) : (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- Into a zero accumulator the product is, at row `p` and column `n`, the sum over the contracted axis. -/
theorem mm_x (l : FVec Ideal S256x1024 .bf16) (r : FVec Ideal S1024x3072 .bf16) (p : Fin 256) (n : Fin 3072) :
    matmul dot_S256x1024_S1024x3072_S256x3072_1_0_0_1_n_n none l r (constant (F := Ideal) S256x3072 .f32 0x00000000#32) (ix2 p n)
      = ∑ k : Fin 1024, l (ix2 p k) * r (ix2 k n) := by
  show FloatOps.matmul dot_S256x1024_S1024x3072_S256x3072_1_0_0_1_n_n none l r (constant (F := Ideal) S256x3072 .f32 0x00000000#32) (ix2 p n) = _
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p n) ((ValueIdx.contrEquiv1 dot_S256x1024_S1024x3072_S256x3072_1_0_0_1_n_n 1024 rfl rfl).symm k) = ix2 p k := funext fun a => Fin.ext (by
    match a with
    | ⟨0, _⟩ => exact lhs_x_0 _ _
    | ⟨1, _⟩ => exact (lhs_x_1 _ _).trans hk)
  have er : dot_S256x1024_S1024x3072_S256x3072_1_0_0_1_n_n.rhsIdx (ix2 p n) ((ValueIdx.contrEquiv1 dot_S256x1024_S1024x3072_S256x3072_1_0_0_1_n_n 1024 rfl rfl).symm k) = ix2 k n := funext fun a => Fin.ext (by
    match a with
    | ⟨0, _⟩ => exact (rhs_x_0 _ _).trans hk
    | ⟨1, _⟩ => exact rhs_x_1 _ _)
  rw [el, er]

/-! ### The block of h against the hidden weights -/

theorem lhs_h_0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_h_1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_h_0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_h_1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- Into a zero accumulator the product is, at row `p` and column `n`, the sum over the contracted axis. -/
theorem mm_h (l : FVec Ideal S256x1024 .bf16) (r : FVec Ideal S1024x2048 .bf16) (p : Fin 256) (n : Fin 2048) :
    matmul dot_S256x1024_S1024x2048_S256x2048_1_0_0_1_n_n none l r (constant (F := Ideal) S256x2048 .f32 0x00000000#32) (ix2 p n)
      = ∑ k : Fin 1024, l (ix2 p k) * r (ix2 k n) := by
  show FloatOps.matmul dot_S256x1024_S1024x2048_S256x2048_1_0_0_1_n_n none l r (constant (F := Ideal) S256x2048 .f32 0x00000000#32) (ix2 p n) = _
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p n) ((ValueIdx.contrEquiv1 dot_S256x1024_S1024x2048_S256x2048_1_0_0_1_n_n 1024 rfl rfl).symm k) = ix2 p k := funext fun a => Fin.ext (by
    match a with
    | ⟨0, _⟩ => exact lhs_h_0 _ _
    | ⟨1, _⟩ => exact (lhs_h_1 _ _).trans hk)
  have er : dot_S256x1024_S1024x2048_S256x2048_1_0_0_1_n_n.rhsIdx (ix2 p n) ((ValueIdx.contrEquiv1 dot_S256x1024_S1024x2048_S256x2048_1_0_0_1_n_n 1024 rfl rfl).symm k) = ix2 k n := funext fun a => Fin.ext (by
    match a with
    | ⟨0, _⟩ => exact (rhs_h_0 _ _).trans hk
    | ⟨1, _⟩ => exact rhs_h_1 _ _)
  rw [el, er]

/-! ### The reset hidden block against the third weight matrix -/

theorem lhs_u_0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_u_1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_u_0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_u_1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into a zero accumulator the product is, at row `p` and column `n`, the sum over the contracted axis. -/
theorem mm_u (l : FVec Ideal S256x1024 .bf16) (r : FVec Ideal S1024x1024 .bf16) (p : Fin 256) (n : Fin 1024) :
    matmul dot_S256x1024_S1024x1024_S256x1024_1_0_0_1_n_n none l r (constant (F := Ideal) S256x1024 .f32 0x00000000#32) (ix2 p n)
      = ∑ k : Fin 1024, l (ix2 p k) * r (ix2 k n) := by
  show FloatOps.matmul dot_S256x1024_S1024x1024_S256x1024_1_0_0_1_n_n none l r (constant (F := Ideal) S256x1024 .f32 0x00000000#32) (ix2 p n) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p n) ((ValueIdx.contrEquiv1 dot_S256x1024_S1024x1024_S256x1024_1_0_0_1_n_n 1024 rfl rfl).symm k) = ix2 p k := funext fun a => Fin.ext (by
    match a with
    | ⟨0, _⟩ => exact lhs_u_0 _ _
    | ⟨1, _⟩ => exact (lhs_u_1 _ _).trans hk)
  have er : dot_S256x1024_S1024x1024_S256x1024_1_0_0_1_n_n.rhsIdx (ix2 p n) ((ValueIdx.contrEquiv1 dot_S256x1024_S1024x1024_S256x1024_1_0_0_1_n_n 1024 rfl rfl).symm k) = ix2 k n := funext fun a => Fin.ext (by
    match a with
    | ⟨0, _⟩ => exact (rhs_u_0 _ _).trans hk
    | ⟨1, _⟩ => exact rhs_u_1 _ _)
  rw [el, er]

/-! ## The stored value at an index -/

section
variable (xb hb : Vec Ideal S256x1024 .f32) (wx : Vec Ideal S1024x3072 .bf16) (wh : Vec Ideal S1024x2048 .bf16)
  (wu : Vec Ideal S1024x1024 .bf16)

/-- The input product of the body, entry `(p, n)`: narrowing the block of x changes nothing here. -/
theorem xProd_at (p : Fin 256) (n : Fin 3072) :
    matmul (φ₂ := .bf16) dot_S256x1024_S1024x3072_S256x3072_1_0_0_1_n_n none (truncf .bf16 xb bitsLt_bf16_f32) wx (constant (F := Ideal) S256x3072 .f32 0x00000000#32) (ix2 p n) = xProj (B := 256) xb wx p n := by
  rw [mm_x]; rfl

/-- The hidden product of the body, entry `(p, n)`. -/
theorem hProd_at (p : Fin 256) (n : Fin 2048) :
    matmul (φ₂ := .bf16) dot_S256x1024_S1024x2048_S256x2048_1_0_0_1_n_n none (truncf .bf16 hb bitsLt_bf16_f32) wh (constant (F := Ideal) S256x2048 .f32 0x00000000#32) (ix2 p n) = hProj (B := 256) hb wh p n := by
  rw [mm_h]; rfl

/-- The body's stored value at row `p`, column `j` of the block. -/
theorem pay_at (p : Fin 256) (j : Fin 1024) :
    k0_pay1 (F := Ideal) xb hb wx wh wu (ix2 p j) = gruAt (B := 256) xb hb wx wh wu p j := by
  unfold k0_pay1
  -- the three reshapes of the weight blocks are to their own shapes: the identity
  simp only [shapeCast_self]
  -- a column piece of a product at (q, c) is the product at (q, shift + c)
  have sx0 : ∀ (q : Fin 256) (c : Fin 1024) (v : FVec Ideal S256x3072 .f32),
      extractStridedSlice S256x1024 ![0, 0] v slices_S256x3072_o0_0_S256x1024 (ix2 q c)
        = v (ix2 q (⟨c.val, by have := c.isLt; omega⟩ : Fin 3072)) := fun q c v =>
    extractStridedSlice_apply ![0, 0] v slices_S256x3072_o0_0_S256x1024 (ix2 q c) _ (fun a => by
      match a with
      | ⟨0, _⟩ => show q.val = 0 + q.val; omega
      | ⟨1, _⟩ => show c.val = 0 + c.val; omega)
  have sx1 : ∀ (q : Fin 256) (c : Fin 1024) (v : FVec Ideal S256x3072 .f32),
      extractStridedSlice S256x1024 ![0, 1024] v slices_S256x3072_o0_1024_S256x1024 (ix2 q c)
        = v (ix2 q (⟨1024 + c.val, by have := c.isLt; omega⟩ : Fin 3072)) := fun q c v =>
    extractStridedSlice_apply ![0, 1024] v slices_S256x3072_o0_1024_S256x1024 (ix2 q c) _ (fun a => by
      match a with
      | ⟨0, _⟩ => show q.val = 0 + q.val; omega
      | ⟨1, _⟩ => rfl)
  have sx2 : ∀ (q : Fin 256) (c : Fin 1024) (v : FVec Ideal S256x3072 .f32),
      extractStridedSlice S256x1024 ![0, 2048] v slices_S256x3072_o0_2048_S256x1024 (ix2 q c)
        = v (ix2 q (⟨2048 + c.val, by have := c.isLt; omega⟩ : Fin 3072)) := fun q c v =>
    extractStridedSlice_apply ![0, 2048] v slices_S256x3072_o0_2048_S256x1024 (ix2 q c) _ (fun a => by
      match a with
      | ⟨0, _⟩ => show q.val = 0 + q.val; omega
      | ⟨1, _⟩ => rfl)
  have sh0 : ∀ (q : Fin 256) (c : Fin 1024) (v : FVec Ideal S256x2048 .f32),
      extractStridedSlice S256x1024 ![0, 0] v slices_S256x2048_o0_0_S256x1024 (ix2 q c)
        = v (ix2 q (⟨c.val, by have := c.isLt; omega⟩ : Fin 2048)) := fun q c v =>
    extractStridedSlice_apply ![0, 0] v slices_S256x2048_o0_0_S256x1024 (ix2 q c) _ (fun a => by
      match a with
      | ⟨0, _⟩ => show q.val = 0 + q.val; omega
      | ⟨1, _⟩ => show c.val = 0 + c.val; omega)
  have sh1 : ∀ (q : Fin 256) (c : Fin 1024) (v : FVec Ideal S256x2048 .f32),
      extractStridedSlice S256x1024 ![0, 1024] v slices_S256x2048_o0_1024_S256x1024 (ix2 q c)
        = v (ix2 q (⟨1024 + c.val, by have := c.isLt; omega⟩ : Fin 2048)) := fun q c v =>
    extractStridedSlice_apply ![0, 1024] v slices_S256x2048_o0_1024_S256x1024 (ix2 q c) _ (fun a => by
      match a with
      | ⟨0, _⟩ => show q.val = 0 + q.val; omega
      | ⟨1, _⟩ => rfl)
  -- the update gate and the reset gate at (q, c)
  have hz : ∀ (q : Fin 256) (c : Fin 1024),
      logistic (addf
          (extractStridedSlice S256x1024 ![0, 0] (matmul (φ₂ := .bf16) dot_S256x1024_S1024x3072_S256x3072_1_0_0_1_n_n none (truncf .bf16 xb bitsLt_bf16_f32) wx (constant (F := Ideal) S256x3072 .f32 0x00000000#32)) slices_S256x3072_o0_0_S256x1024)
          (extractStridedSlice S256x1024 ![0, 0] (matmul (φ₂ := .bf16) dot_S256x1024_S1024x2048_S256x2048_1_0_0_1_n_n none (truncf .bf16 hb bitsLt_bf16_f32) wh (constant (F := Ideal) S256x2048 .f32 0x00000000#32)) slices_S256x2048_o0_0_S256x1024)) (ix2 q c)
        = updateGate (B := 256) xb hb wx wh q c := fun q c => by
    show Ideal.logistic (_ + _) = _
    rw [sx0, sh0, xProd_at, hProd_at]; rfl
  have hr : ∀ (q : Fin 256) (c : Fin 1024),
      logistic (addf
          (extractStridedSlice S256x1024 ![0, 1024] (matmul (φ₂ := .bf16) dot_S256x1024_S1024x3072_S256x3072_1_0_0_1_n_n none (truncf .bf16 xb bitsLt_bf16_f32) wx (constant (F := Ideal) S256x3072 .f32 0x00000000#32)) slices_S256x3072_o0_1024_S256x1024)
          (extractStridedSlice S256x1024 ![0, 1024] (matmul (φ₂ := .bf16) dot_S256x1024_S1024x2048_S256x2048_1_0_0_1_n_n none (truncf .bf16 hb bitsLt_bf16_f32) wh (constant (F := Ideal) S256x2048 .f32 0x00000000#32)) slices_S256x2048_o0_1024_S256x1024)) (ix2 q c)
        = resetGate (B := 256) xb hb wx wh q c := fun q c => by
    show Ideal.logistic (_ + _) = _
    rw [sx1, sh1, xProd_at, hProd_at]; rfl
  -- the stored value: z · h + (1 − z) · tanh (Σₖ (r · h)ₖ · wu + xp₂)
  show _ * _ + (Ideal.ofBits .f32 0x3F800000#32 - _) * Ideal.tanh (_ + _) = _
  rw [hz, sx2, xProd_at, mm_u, one_f32]
  unfold gruAt candidate
  refine congrArg (fun s => _ * _ + (1 - _) * Ideal.tanh (s + _)) (Finset.sum_congr rfl fun k _ => ?_)
  -- summand k: the reset gate times h, narrowed (the identity), against column j of the third matrix
  exact congrArg (fun r => r * hb (ix2 p k) * wu (ix2 k j)) (hr p k)

end

end Cert.KernelIdeal.Payload

end
-- ==== Proof.ValueBlocks.lean ====
/-
  From the blocks the pipeline writes back to the whole result array, on the extended reals.

  Grid point `t` stages rows 256·t … 256·t + 255 of x and of h, the three weight matrices whole, and writes
  back rows 256·t … 256·t + 255 of the result. What it writes back is the body's stored value of the staged
  blocks, which at row `p`, column `j` of the block is the GRU cell of the blocks at `(p, j)` — and a row
  of the GRU cell reads only that row of x and h, so it is the GRU cell of the WHOLE arrays at row
  `256·t + p`, column `j`: the block written back is block `t` of `gru` of the arrays as the region finds
  them. Row `r` of the result lies in the block of point `r / 256`, so the 32 blocks cover the array and it
  ends holding `gru` of those arrays everywhere.
-/
import proofs.«161924_j34943853920831_1_alg».proof.Proof.FrameKernelIdeal
import proofs.«161924_j34943853920831_1_alg».proof.Proof.KernelPayload
import proofs.«161924_j34943853920831_1_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Hand Cert.KernelIdeal.Payload Cert.Gru
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The five arrays the region reads, as it finds them -/

abbrev xArr (c : Dev nD) : Vec Ideal S8192x1024 .f32 := atEntry m c main_arg0
abbrev hArr (c : Dev nD) : Vec Ideal S8192x1024 .f32 := atEntry m c main_arg1
abbrev wxArr (c : Dev nD) : Vec Ideal S1024x3072 .bf16 := atEntry m c main_v2
abbrev whArr (c : Dev nD) : Vec Ideal S1024x2048 .bf16 := atEntry m c main_v5
abbrev wuArr (c : Dev nD) : Vec Ideal S1024x1024 .bf16 := atEntry m c main_v7

/-- The result array the claim is about: the GRU cell of those five. -/
abbrev target (c : Dev nD) : Vec Ideal S8192x1024 .f32 :=
  gru (B := 8192) (xArr m c) (hArr m c) (wxArr m c) (whArr m c) (wuArr m c)

theorem zeroOff : (![0, 0] : Fin 2 → Nat) = fun _ => 0 := funext fun a => by fin_cases a <;> rfl

/-! ## The index maps over the grid -/

/-- At point `t` the x, h and result windows sit at block row `t`, block column 0; the weight windows at block (0, 0). -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The staged blocks in terms of the arrays -/

/-- A weight window's block is its whole array. -/
theorem wxBlock (c : Dev nD) (t : Fin cfg0.N) : (blockAt m c 2 t : Vec Ideal S1024x3072 .bf16) = wxArr m c := by
  obtain ⟨-, -, -, -, -, -, e0, e1, -⟩ := idx_facts t
  funext y
  show atEntry m c main_v2 (((cfg0.win 2).blk t).view.emb y) = atEntry m c main_v2 y
  refine congrArg _ ?_
  funext a; apply Fin.ext
  match a with
  | ⟨0, _⟩ => show win0_2.index t (0 : Fin 2) * 1024 + 1 * (y 0).val = (y 0).val; omega
  | ⟨1, _⟩ => show win0_2.index t (1 : Fin 2) * 3072 + 1 * (y 1).val = (y 1).val; omega
theorem whBlock (c : Dev nD) (t : Fin cfg0.N) : (blockAt m c 3 t : Vec Ideal S1024x2048 .bf16) = whArr m c := by
  obtain ⟨-, -, -, -, -, -, -, -, e0, e1, -⟩ := idx_facts t
  funext y
  show atEntry m c main_v5 (((cfg0.win 3).blk t).view.emb y) = atEntry m c main_v5 y
  refine congrArg _ ?_
  funext a; apply Fin.ext
  match a with
  | ⟨0, _⟩ => show win0_3.index t (0 : Fin 2) * 1024 + 1 * (y 0).val = (y 0).val; omega
  | ⟨1, _⟩ => show win0_3.index t (1 : Fin 2) * 2048 + 1 * (y 1).val = (y 1).val; omega
theorem wuBlock (c : Dev nD) (t : Fin cfg0.N) : (blockAt m c 4 t : Vec Ideal S1024x1024 .bf16) = wuArr m c := by
  obtain ⟨-, -, -, -, -, -, -, -, -, -, e0, e1⟩ := idx_facts t
  funext y
  show atEntry m c main_v7 (((cfg0.win 4).blk t).view.emb y) = atEntry m c main_v7 y
  refine congrArg _ ?_
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Row `p` of the block of x at point `t` is row `256·t + p` of x; -/
theorem xBlock_row (c : Dev nD) (t : Fin cfg0.N) (p : Fin 256) (hr : 256 * t.val + p.val < 8192) (k : Fin 1024) :
    (blockAt m c 0 t : Vec Ideal S256x1024 .f32) (ix2 p k) = xArr m c (ix2 (⟨256 * t.val + p.val, hr⟩ : Fin 8192) k) := by
  obtain ⟨-, -, e0, e1, -⟩ := idx_facts t
  show atEntry m c main_arg0 (((cfg0.win 0).blk t).view.emb (ix2 p k)) = atEntry m c main_arg0 _
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega
/-- and the same for h. -/
theorem hBlock_row (c : Dev nD) (t : Fin cfg0.N) (p : Fin 256) (hr : 256 * t.val + p.val < 8192) (k : Fin 1024) :
    (blockAt m c 1 t : Vec Ideal S256x1024 .f32) (ix2 p k) = hArr m c (ix2 (⟨256 * t.val + p.val, hr⟩ : Fin 8192) k) := by
  obtain ⟨-, -, -, -, e0, e1, -⟩ := idx_facts t
  show atEntry m c main_arg1 (((cfg0.win 1).blk t).view.emb (ix2 p k)) = atEntry m c main_arg1 _
  refine congrArg _ ?_
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

/-! ## What a point writes back -/

/-- Point `t` writes back block `t` of the GRU cell of the arrays as the region finds them. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after_5]
  unfold newRows
  rw [View.canon_unit_zero zeroOff]
  simp only [View.ld_unit_zero (S := S256x1024) zeroOff, View.ld_unit_zero (S := S1024x3072) zeroOff,
    View.ld_unit_zero (S := S1024x2048) zeroOff, View.ld_unit_zero (S := S1024x1024) zeroOff]
  obtain ⟨e0, e1, -⟩ := idx_facts t
  have ht : t.val < 32 := by have h : t.val < grid0.N := t.isLt; rw [N_0] at h; exact h
  funext y
  obtain ⟨p, j, rfl⟩ : ∃ (p : Fin 256) (j : Fin 1024), y = ix2 p j := ⟨y 0, y 1, eq_ix2 y⟩
  have hr : 256 * t.val + p.val < 8192 := by have := p.isLt; omega
  -- the stored value at (p, j) is the cell of the blocks;
  refine (pay_at (blockAt m c 0 t) (blockAt m c 1 t) (blockAt m c 2 t) (blockAt m c 3 t) (blockAt m c 4 t) p j).trans ?_
  -- the weight blocks are the weight arrays, and row p of the x and h blocks is row 256·t + p of x and h;
  rw [wxBlock m c t, whBlock m c t, wuBlock m c t]
  refine (gruAt_row (B := 256) (B' := 8192) (blockAt m c 0 t) (blockAt m c 1 t) (xArr m c) (hArr m c) (wxArr m c) (whArr m c) (wuArr m c)
    p (⟨256 * t.val + p.val, hr⟩ : Fin 8192) (fun k => xBlock_row m c t p hr k) (fun k => hBlock_row m c t p hr k) j).trans ?_
  -- and that is the target read at the block's element (p, j).
  show gruAt (B := 8192) (xArr m c) (hArr m c) (wxArr m c) (whArr m c) (wuArr m c) ⟨256 * t.val + p.val, hr⟩ j
      = target m c (((cfg0.win 5).blk t).view.emb (ix2 p j))
  have he : ((cfg0.win 5).blk t).view.emb (ix2 p j) = ix2 (⟨256 * t.val + p.val, hr⟩ : Fin 8192) j := by
    funext a; apply Fin.ext
    match a with
    | ⟨0, _⟩ => show win0_5.index t (0 : Fin 2) * 256 + 1 * p.val = 256 * t.val + p.val; omega
    | ⟨1, _⟩ => show win0_5.index t (1 : Fin 2) * 1024 + 1 * j.val = j.val; omega
  rw [he]
  rfl

/-! ## The blocks cover the array -/

/-- An index of the result array is in point `t`'s block iff each coordinate is in the block's range on its axis. -/
theorem mem_block (t : Fin cfg0.N) (i : S8192x1024.Idx) :
    i ∈ ((cfg0.win 5).blk t).view.set
      ↔ ∀ a : Fin 2, win0_5.index t a * S256x1024.size a ≤ (i a).val ∧ (i a).val < win0_5.index t a * S256x1024.size a + S256x1024.size a := by
  show i ∈ ((View.whole main_v8).slice (win0_5.rect t)).set ↔ _
  rw [View.set_slice_whole, Rect.mem_set_unit]
  exact Iff.rfl

/-- Row `r` of the result is written back by point `r / 256`. -/
theorem covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := by show _ < grid0.N; rw [N_0]; omega
  refine ⟨⟨(i 0).val / 256, hN⟩, flush0_5 _, ?_⟩
  obtain ⟨e0, e1, -⟩ := idx_facts ⟨(i 0).val / 256, hN⟩
  rw [mem_block]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    have e0' : win0_5.index ⟨(i 0).val / 256, hN⟩ (0 : Fin 2) = (i 0).val / 256 := e0
    omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    omega

/-! ## The result array after the run -/

/-- After the last write-back the result array holds the GRU cell of the five arrays as the region found them. -/
theorem final (c : Dev nD) : (dats m 0 c).arrAt 5 cfg0.N = target m c :=
  (dats m 0 c).arrAt_eq_of_cover 5 (target m c) (fun t _ => flushed_eq m c t) (covered)

end Cert.KernelIdeal.Whole

end
-- ==== Proof.ValueRun.lean ====
/-
  The idealized kernel's run with its result array named, on the extended reals.

  The region finds x and h as launched, and the three weight matrices as the host operations before it
  leave them: W_wz, W_wr, W_w stacked by rows and transposed; W_uz, W_ur stacked by rows and transposed; W_u
  transposed; each then narrowed to bf16, which on the extended reals changes nothing. So the result array
  ends holding the GRU cell of x, h and those three matrices of the launch contents.
-/
import proofs.«161924_j34943853920831_1_alg».proof.Proof.ValueBlocks
import Idealize.ShloMosaic.Lib.StableHlo.Run

set_option maxRecDepth 16384

noncomputable section

namespace Cert.KernelIdeal.Whole

open Cert.KernelIdeal Cert.KernelIdeal.Gen Cert.KernelIdeal.Hand Cert.Gru
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The weight matrices the host operations assemble, of the launch contents -/

/-- W_wz, W_wr, W_w stacked by rows, transposed: [1024, 3072]. -/
abbrev inputWeights (c : Dev nD) : Vec Ideal S1024x3072 .f32 :=
  transpose S1024x3072 [1, 0]
    (concatenate S3072x1024 0 [⟨S1024x1024, m ((c : Thread nD τ).loc main_arg2)⟩, ⟨S1024x1024, m ((c : Thread nD τ).loc main_arg4)⟩,
      ⟨S1024x1024, m ((c : Thread nD τ).loc main_arg7)⟩] concatenates_S1024x1024_S1024x1024_S1024x1024_S3072x1024_d0)
    transposes_S3072x1024_S1024x3072_1_0

/-- W_uz, W_ur stacked by rows, transposed: [1024, 2048]. -/
abbrev hiddenWeights (c : Dev nD) : Vec Ideal S1024x2048 .f32 :=
  transpose S1024x2048 [1, 0]
    (concatenate S2048x1024 0 [⟨S1024x1024, m ((c : Thread nD τ).loc main_arg3)⟩, ⟨S1024x1024, m ((c : Thread nD τ).loc main_arg5)⟩]
      concatenates_S1024x1024_S1024x1024_S2048x1024_d0)
    transposes_S2048x1024_S1024x2048_1_0

/-- W_u transposed. -/
abbrev candidateWeights (c : Dev nD) : Vec Ideal S1024x1024 .f32 :=
  transpose S1024x1024 [1, 0] (m ((c : Thread nD τ).loc main_arg6)) transposes_S1024x1024_S1024x1024_1_0

/-- The region finds the first weight window's array at the narrowed `inputWeights`: the concatenate of three
    arguments, its transpose and the narrowing, read off the host operations. -/
theorem wx_entry (c : Dev nD) : wxArr m c = truncf (F := Ideal) .bf16 (inputWeights m c) bitsLt_bf16_f32 := by
  dsimp only [wxArr, atEntry, hostOps0]
  after_results <;> rfl
theorem wh_entry (c : Dev nD) : whArr m c = truncf (F := Ideal) .bf16 (hiddenWeights m c) bitsLt_bf16_f32 := by
  dsimp only [whArr, atEntry, hostOps0]
  after_results <;> rfl
theorem wu_entry (c : Dev nD) : wuArr m c = truncf (F := Ideal) .bf16 (candidateWeights m c) bitsLt_bf16_f32 := by
  dsimp only [wuArr, atEntry, hostOps0]
  after_results <;> rfl

/-- On the extended reals the narrowing is the identity: the result array's target is the GRU cell of the launch
    contents of x and h and the three assembled matrices. -/
theorem target_eq (c : Dev nD) :
    target m c = gru (B := 8192) (m ((c : Thread nD τ).loc main_arg0)) (m ((c : Thread nD τ).loc main_arg1))
      (inputWeights m c) (hiddenWeights m c) (candidateWeights m c) := by
  have hx : xArr m c = m ((c : Thread nD τ).loc main_arg0) := atEntry_arg0 m c
  have hh : hArr m c = m ((c : Thread nD τ).loc main_arg1) := atEntry_arg1 m c
  unfold target
  rw [hx, hh, wx_entry, wh_entry, wu_entry]
  rfl

/-! ## The run -/

/-- Every weakly fair execution of the idealized kernel's @main terminates with the result array at the GRU cell of
    the launch contents and the eight arguments unchanged. -/
theorem run_value : θ_run defs (onTc (τ := τ) (main (F := Ideal))) ⟨m, fun _ => 0, ρ⟩ (fun r => ∀ c : Dev nD,
      r.2.mem ((c.tc : Thread nD τ).loc main_v8)
        = gru (B := 8192) (m ((c : Thread nD τ).loc main_arg0)) (m ((c : Thread nD τ).loc main_arg1))
            (inputWeights m c) (hiddenWeights m c) (candidateWeights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (((h c).1 5).trans (final m c)).trans (target_eq m c),
      ((h c).1 0).trans (((dats m 0 c).arrAt_in 0 rfl _).trans ((dats_A m c 0).trans (atEntry_arg0 m c))),
      ((h c).1 1).trans (((dats m 0 c).arrAt_in 1 rfl _).trans ((dats_A m c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩)
    (run_main m ρ)

end Cert.KernelIdeal.Whole

end
-- ==== Proof.RefIsGru.lean ====
/-
  The reference's result array is the GRU cell `Cert.Gru.gru` of its arguments.

  The reference stacks (W_wz, W_wr, W_w) and (W_uz, W_ur) by rows and transposes them, transposes W_u,
  multiplies x and h into the first two, slices the products into thirds and halves by columns, and
  spells the sigmoid as 1 / (1 + e^(−a)). Read one operation at a time at an index, each product is a
  sum over the contracted axis, each slice shifts the column by 0, 1024 or 2048, and the rest is
  pointwise: that is `gruAt` over the three assembled weight matrices.
-/
import proofs.«161924_j34943853920831_1_alg».proof.Proof.Gen.ReferenceIdeal.Read
import proofs.«161924_j34943853920831_1_alg».proof.Proof.Spec

noncomputable section

namespace Cert.ReferenceIdeal.IsGru

open Cert.ReferenceIdeal Cert.ReferenceIdeal.Read Cert.Gru
open Idealize.ShloMosaic Idealize.ShloMosaic.ValueIdx

variable (x0 x1 : (⟨S8192x1024, .f32⟩ : BufTy).Contents (Elt Ideal))
  (x2 x3 x4 x5 x6 x7 : (⟨S1024x1024, .f32⟩ : BufTy).Contents (Elt Ideal))

/-- The product of x with the stacked, transposed input weights, at row `b` and column `n`. -/
theorem xProj_eq (b : Fin 8192) (n : Fin 3072) :
    val_main_v2 (F := Ideal) x0 x2 x4 x7 (ix2 b n) = xProj (B := 8192) x0 (val_main_v1 (F := Ideal) x2 x4 x7) b n := by
  rw [val_main_v2_apply]
  unfold xProj
  refine Finset.sum_congr rfl fun k _ => ?_
  have el : lidx_main_v2 (ix2 b n) k = ix2 b k := funext fun a => by match a with | ⟨0, _⟩ => rfl | ⟨1, _⟩ => rfl
  have er : ridx_main_v2 (ix2 b n) k = ix2 k n := funext fun a => by match a with | ⟨0, _⟩ => rfl | ⟨1, _⟩ => rfl
  rw [el, er]

/-- The product of h with the stacked, transposed hidden weights, at row `b` and column `n`. -/
theorem hProj_eq (b : Fin 8192) (n : Fin 2048) :
    val_main_v5 (F := Ideal) x1 x3 x5 (ix2 b n) = hProj (B := 8192) x1 (val_main_v4 (F := Ideal) x3 x5) b n := by
  rw [val_main_v5_apply]
  unfold hProj
  refine Finset.sum_congr rfl fun k _ => ?_
  have el : lidx_main_v5 (ix2 b n) k = ix2 b k := funext fun a => by match a with | ⟨0, _⟩ => rfl | ⟨1, _⟩ => rfl
  have er : ridx_main_v5 (ix2 b n) k = ix2 k n := funext fun a => by match a with | ⟨0, _⟩ => rfl | ⟨1, _⟩ => rfl
  rw [el, er]

/-- The update gate: columns `j` of both products, through the spelled-out sigmoid. -/
theorem update_eq (b : Fin 8192) (j : Fin 1024) :
    val_main_v14 (F := Ideal) x0 x1 x2 x3 x4 x5 x7 (ix2 b j)
      = updateGate (B := 8192) x0 x1 (val_main_v1 (F := Ideal) x2 x4 x7) (val_main_v4 (F := Ideal) x3 x5) b j := by
  rw [val_main_v14_apply, val_main_v13_apply, val_main_cst_0_apply, val_main_v12_apply, val_main_v11_apply, val_main_cst_apply,
    val_main_v10_apply, val_main_v9_apply, val_main_v8_apply, val_main_v6_apply, val_main_v7_apply]
  have e6 : idx_main_v6 (ix2 b j) = ix2 b (⟨j.val, by have := j.isLt; omega⟩ : Fin 3072) := funext fun a => by match a with | ⟨0, _⟩ => rfl | ⟨1, _⟩ => rfl
  have e7 : idx_main_v7 (ix2 b j) = ix2 b (⟨j.val, by have := j.isLt; omega⟩ : Fin 2048) := funext fun a => by match a with | ⟨0, _⟩ => rfl | ⟨1, _⟩ => rfl
  rw [e6, e7, xProj_eq, hProj_eq]
  exact sigmoid_eq _

/-- The reset gate: columns `1024 + j` of both products. -/
theorem reset_eq (b : Fin 8192) (j : Fin 1024) :
    val_main_v23 (F := Ideal) x0 x1 x2 x3 x4 x5 x7 (ix2 b j)
      = resetGate (B := 8192) x0 x1 (val_main_v1 (F := Ideal) x2 x4 x7) (val_main_v4 (F := Ideal) x3 x5) b j := by
  rw [val_main_v23_apply, val_main_v22_apply, val_main_cst_2_apply, val_main_v21_apply, val_main_v20_apply, val_main_cst_1_apply,
    val_main_v19_apply, val_main_v18_apply, val_main_v17_apply, val_main_v15_apply, val_main_v16_apply]
  have e15 : idx_main_v15 (ix2 b j) = ix2 b (⟨1024 + j.val, by have := j.isLt; omega⟩ : Fin 3072) := funext fun a => by match a with | ⟨0, _⟩ => rfl | ⟨1, _⟩ => rfl
  have e16 : idx_main_v16 (ix2 b j) = ix2 b (⟨1024 + j.val, by have := j.isLt; omega⟩ : Fin 2048) := funext fun a => by match a with | ⟨0, _⟩ => rfl | ⟨1, _⟩ => rfl
  rw [e15, e16, xProj_eq, hProj_eq]
  exact sigmoid_eq _

/-- The candidate state: the reset hidden row against the transposed W_u, plus column `2048 + j` of the input product. -/
theorem candidate_eq (b : Fin 8192) (j : Fin 1024) :
    val_main_v29 (F := Ideal) x0 x1 x2 x3 x4 x5 x6 x7 (ix2 b j)
      = candidate (B := 8192) x0 x1 (val_main_v1 (F := Ideal) x2 x4 x7) (val_main_v4 (F := Ideal) x3 x5) (val_main_v25 (F := Ideal) x6) b j := by
  rw [val_main_v29_apply, val_main_v28_apply, val_main_v26_apply, val_main_v27_apply]
  have e27 : idx_main_v27 (ix2 b j) = ix2 b (⟨2048 + j.val, by have := j.isLt; omega⟩ : Fin 3072) := funext fun a => by match a with | ⟨0, _⟩ => rfl | ⟨1, _⟩ => rfl
  rw [e27, xProj_eq]
  have hs : (∑ k : Fin 1024, (val_main_v24 (F := Ideal) x0 x1 x2 x3 x4 x5 x7) (lidx_main_v26 (ix2 b j) k) * (val_main_v25 (F := Ideal) x6) (ridx_main_v26 (ix2 b j) k))
      = ∑ k : Fin 1024, (resetGate (B := 8192) x0 x1 (val_main_v1 (F := Ideal) x2 x4 x7) (val_main_v4 (F := Ideal) x3 x5) b k * x1 (ix2 b k))
          * (val_main_v25 (F := Ideal) x6) (ix2 k j) :=
    Finset.sum_congr rfl fun k _ => by
      have el : lidx_main_v26 (ix2 b j) k = ix2 b k := funext fun a => by match a with | ⟨0, _⟩ => rfl | ⟨1, _⟩ => rfl
      have er : ridx_main_v26 (ix2 b j) k = ix2 k j := funext fun a => by match a with | ⟨0, _⟩ => rfl | ⟨1, _⟩ => rfl
      rw [el, er, val_main_v24_apply, reset_eq]
      rfl
  rw [hs]
  rfl

/-- The reference's result at row `b`, column `j`. -/
theorem ref_at (b : Fin 8192) (j : Fin 1024) :
    val_main_v34 (F := Ideal) x0 x1 x2 x3 x4 x5 x6 x7 (ix2 b j)
      = gruAt (B := 8192) x0 x1 (val_main_v1 (F := Ideal) x2 x4 x7) (val_main_v4 (F := Ideal) x3 x5) (val_main_v25 (F := Ideal) x6) b j := by
  rw [val_main_v34_apply, val_main_v30_apply, val_main_v33_apply, val_main_v32_apply, val_main_v31_apply, val_main_cst_3_apply,
    update_eq, candidate_eq]
  unfold gruAt
  show _ * _ + (Ideal.ofBits .f32 0x3F800000#32 - _) * _ = _
  rw [one_f32]

/-- The reference's result array is the GRU cell of x, h and the three assembled weight matrices. -/
theorem ref_is_gru :
    val_main_v34 (F := Ideal) x0 x1 x2 x3 x4 x5 x6 x7
      = gru (B := 8192) x0 x1 (val_main_v1 (F := Ideal) x2 x4 x7) (val_main_v4 (F := Ideal) x3 x5) (val_main_v25 (F := Ideal) x6) :=
  funext fun i => by
    obtain ⟨b, j, rfl⟩ : ∃ (b : Fin 8192) (j : Fin 1024), i = ix2 b j := ⟨i 0, i 1, eq_ix2 i⟩
    rw [gru_ix2]
    exact ref_at x0 x1 x2 x3 x4 x5 x6 x7 b j

end Cert.ReferenceIdeal.IsGru

end
-- ==== Proof.lean ====
/-
  A fused GRU cell against its plain reference, over the extended reals.

  Both programs compute, for x, h : [8192, 1024] and six square weight matrices,

      xp = x · [W_wz; W_wr; W_w]ᵀ      hp = h · [W_uz; W_ur]ᵀ
      z = σ (xp₀ + hp₀)      r = σ (xp₁ + hp₁)      c = tanh ((r ⊙ h) · W_uᵀ + xp₂)
      out = z ⊙ h + (1 − z) ⊙ c

  with xpᵢ, hpᵢ the i-th block of 1024 columns. The kernel does it 256 rows at a time over a grid of 32
  points, with the weight matrices assembled by host operations first and narrowed to bf16, and the logistic
  function as one operation; the reference does it on the whole arrays, with the logistic function spelled
  1 / (1 + e^(−a)). On the extended reals a change of float format is the identity, each matrix product is
  the sum over the contracted axis, and the two spellings of the logistic function are one function, at the
  infinities too: both results are `Cert.Gru.gru` of x, h and the three assembled matrices. No law of
  arithmetic beyond that is used, so finiteness of the inputs is never called upon.

  The three frames: the word-level kernel and the idealized kernel each run the host operations and then one
  pipelined region whose body reads five staged blocks and overwrites one, leaving all eight arguments as they
  were (the same argument at both float families); the reference is host operations only.
  No operation of the kernel was rewritten by the idealization, so there is nothing for it to preserve.
-/
import proofs.«161924_j34943853920831_1_alg».proof.Defs
import proofs.«161924_j34943853920831_1_alg».proof.Proof.Gen.Kernel
import proofs.«161924_j34943853920831_1_alg».proof.Proof.Gen.KernelIdeal
import proofs.«161924_j34943853920831_1_alg».proof.Proof.Gen.ReferenceIdeal
import proofs.«161924_j34943853920831_1_alg».proof.Proof.Gen.Pre_finite_inputs
import proofs.«161924_j34943853920831_1_alg».proof.Proof.Gen.ReferenceIdeal.Run
import proofs.«161924_j34943853920831_1_alg».proof.Proof.Gen.ReferenceIdeal.Read
import proofs.«161924_j34943853920831_1_alg».proof.Proof.FrameKernel
import proofs.«161924_j34943853920831_1_alg».proof.Proof.FrameKernelIdeal
import proofs.«161924_j34943853920831_1_alg».proof.Proof.ValueRun
import proofs.«161924_j34943853920831_1_alg».proof.Proof.RefIsGru
import Idealize.ShloMosaic.Adequacy
import Idealize.ShloMosaic.Init

noncomputable section

namespace Cert.Proof

open Idealize.ShloMosaic Idealize.SL.Sem

/-- The word-level kernel runs to the end and leaves its eight arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the GRU cell of x, h and the three
    assembled weight matrices: the kernel by its run read block by block, the reference by its run read one
    operation at a time; the reference's stacked and transposed matrices are the kernel's, term for term. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v34_eq, Cert.ReferenceIdeal.IsGru.ref_is_gru, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
